-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x768 : Shape := ⟨2, ![32, 768]⟩
abbrev S256x768 : Shape := ⟨2, ![256, 768]⟩
abbrev S256x768x768 : Shape := ⟨3, ![256, 768, 768]⟩
abbrev S_ : Shape := ⟨0, ![]⟩

class Facts : Prop where
  bcast_S_S32x768 : S_.BroadcastsInDim S32x768 (![] : Fin 0 → Fin S32x768.rank)
  reducesTo_S32x768_S_d0_1 : S32x768.ReducesTo [0, 1] S_
  h_S_ : 0 < S_.numel
  bcast_S_S256x768 : S_.BroadcastsInDim S256x768 (![] : Fin 0 → Fin S256x768.rank)
  reducesTo_S256x768_S_d0_1 : S256x768.ReducesTo [0, 1] S_
  bcast_S_S256x768x768 : S_.BroadcastsInDim S256x768x768 (![] : Fin 0 → Fin S256x768x768.rank)
  reducesTo_S256x768x768_S_d0_1_2 : S256x768x768.ReducesTo [0, 1, 2] S_

variable [Facts]

def fn_part1 {F : FTy → Type} [FloatOps F] (main_v13 : IVec S_ 1) (main_v16 : IVec S256x768x768 1) : IVec S_ 1 :=
  let main_c_5 : IVec S_ 1 := constantI S_ 1 1#1
  let main_v17 : IVec S_ 1 := (fun x v => Host.reduce IntOp.andi x v reducesTo_S256x768x768_S_d0_1_2 h_S_) main_v16 main_c_5
  let main_v18 : IVec S_ 1 := andi main_v13 main_v17
  main_v18

def fn {F : FTy → Type} [FloatOps F] (main_arg0 : FVec F S32x768 .f32) (main_arg1 : FVec F S256x768 .f32) (main_arg2 : FVec F S256x768 .f32) (main_arg3 : FVec F S256x768x768 .f32) : IVec S_ 1 :=
  let main_v0 : FVec F S32x768 .f32 := Host.absf main_arg0
  let main_cst : FVec F S_ .f32 := constant S_ .f32 0x7F800000#32
  let main_v1 : FVec F S32x768 .f32 := broadcastInDim S32x768 ![] bcast_S_S32x768 main_cst
  let main_v2 : IVec S32x768 1 := cmpf .olt main_v0 main_v1
  let main_c : IVec S_ 1 := constantI S_ 1 1#1
  let main_v3 : IVec S_ 1 := (fun x v => Host.reduce IntOp.andi x v reducesTo_S32x768_S_d0_1 h_S_) main_v2 main_c
  let main_v4 : FVec F S256x768 .f32 := Host.absf main_arg1
  let main_cst_0 : FVec F S_ .f32 := constant S_ .f32 0x7F800000#32
  let main_v5 : FVec F S256x768 .f32 := broadcastInDim S256x768 ![] bcast_S_S256x768 main_cst_0
  let main_v6 : IVec S256x768 1 := cmpf .olt main_v4 main_v5
  let main_c_1 : IVec S_ 1 := constantI S_ 1 1#1
  let main_v7 : IVec S_ 1 := (fun x v => Host.reduce IntOp.andi x v reducesTo_S256x768_S_d0_1 h_S_) main_v6 main_c_1
  let main_v8 : IVec S_ 1 := andi main_v3 main_v7
  let main_v9 : FVec F S256x768 .f32 := Host.absf main_arg2
  let main_cst_2 : FVec F S_ .f32 := constant S_ .f32 0x7F800000#32
  let main_v10 : FVec F S256x768 .f32 := broadcastInDim S256x768 ![] bcast_S_S256x768 main_cst_2
  let main_v11 : IVec S256x768 1 := cmpf .olt main_v9 main_v10
  let main_c_3 : IVec S_ 1 := constantI S_ 1 1#1
  let main_v12 : IVec S_ 1 := (fun x v => Host.reduce IntOp.andi x v reducesTo_S256x768_S_d0_1 h_S_) main_v11 main_c_3
  let main_v13 : IVec S_ 1 := andi main_v8 main_v12
  let main_v14 : FVec F S256x768x768 .f32 := Host.absf main_arg3
  let main_cst_4 : FVec F S_ .f32 := constant S_ .f32 0x7F800000#32
  let main_v15 : FVec F S256x768x768 .f32 := broadcastInDim S256x768x768 ![] bcast_S_S256x768x768 main_cst_4
  let main_v16 : IVec S256x768x768 1 := cmpf .olt main_v14 main_v15
  fn_part1 (F := F) main_v13 main_v16
-- ==== Kernel.lean ====
abbrev S32x768 : Shape := ⟨2, ![32, 768]⟩
abbrev S256x768 : Shape := ⟨2, ![256, 768]⟩
abbrev S256x768x768 : Shape := ⟨3, ![256, 768, 768]⟩
abbrev S256x32 : Shape := ⟨2, ![256, 32]⟩
abbrev S16x768 : Shape := ⟨2, ![16, 768]⟩
abbrev S16x256x768 : Shape := ⟨3, ![16, 256, 768]⟩
abbrev S16x32 : Shape := ⟨2, ![16, 32]⟩
abbrev S16x32x768 : Shape := ⟨3, ![16, 32, 768]⟩
abbrev S32x256 : Shape := ⟨2, ![32, 256]⟩
abbrev S16x256 : Shape := ⟨2, ![16, 256]⟩
abbrev S1x32x256 : Shape := ⟨3, ![1, 32, 256]⟩
abbrev S16x1x256 : Shape := ⟨3, ![16, 1, 256]⟩
abbrev S16x32x256 : Shape := ⟨3, ![16, 32, 256]⟩
abbrev S1x32x768 : Shape := ⟨3, ![1, 32, 768]⟩
abbrev S16x1x768 : Shape := ⟨3, ![16, 1, 768]⟩

abbrev nBuf : Space → Nat
  | .hbm => 6
  | .vmem => 10
  | .smem => 0
  | _ => 0

abbrev bufTy : (tb : Table) → Fin (tcTables nBuf tb) → BufTy
  | .hbm, ⟨0, _⟩ => ⟨S32x768, .f32⟩
  | .hbm, ⟨1, _⟩ => ⟨S256x768, .f32⟩
  | .hbm, ⟨2, _⟩ => ⟨S256x768, .f32⟩
  | .hbm, ⟨3, _⟩ => ⟨S256x768x768, .f32⟩
  | .hbm, ⟨4, _⟩ => ⟨S256x32, .f32⟩
  | .hbm, ⟨5, _⟩ => ⟨S32x256, .f32⟩
  | .local _ .vmem, ⟨0, _⟩ => ⟨S32x768, .f32⟩
  | .local _ .vmem, ⟨1, _⟩ => ⟨S16x768, .f32⟩
  | .local _ .vmem, ⟨2, _⟩ => ⟨S16x768, .f32⟩
  | .local _ .vmem, ⟨3, _⟩ => ⟨S16x768, .f32⟩
  | .local _ .vmem, ⟨4, _⟩ => ⟨S16x768, .f32⟩
  | .local _ .vmem, ⟨5, _⟩ => ⟨S16x256x768, .f32⟩
  | .local _ .vmem, ⟨6, _⟩ => ⟨S16x256x768, .f32⟩
  | .local _ .vmem, ⟨7, _⟩ => ⟨S16x32, .f32⟩
  | .local _ .vmem, ⟨8, _⟩ => ⟨S16x32, .f32⟩
  | .local _ .vmem, ⟨9, _⟩ => ⟨S16x32x768, .f32⟩
  | _, _ => ⟨S32x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![16, 3], ![false, false]⟩

def k0_mult1 (i : grid0.Coords) : BitVec 32 :=
  let arg1 : BitVec 32 := BitVec.ofNat 32 (i 1).val
  let c256_i32 : BitVec 32 := 256#32
  let v3 : BitVec 32 := Scalar.muli arg1 c256_i32
  v3
def k0_off1 (i : grid0.Coords) : Fin 2 → Nat :=
  let c0 : Index := 0#32
  let arg1 : BitVec 32 := BitVec.ofNat 32 (i 1).val
  let c256_i32 : BitVec 32 := 256#32
  let v3 : BitVec 32 := Scalar.muli arg1 c256_i32
  let v4 : BitVec 32 := v3
  let v5 : Index := Scalar.indexCast v4
  ![0, v5.toNat]
def k0_off2 (i : grid0.Coords) : Fin 2 → Nat :=
  let c0_1 : Index := 0#32
  let arg1 : BitVec 32 := BitVec.ofNat 32 (i 1).val
  let c256_i32 : BitVec 32 := 256#32
  let v3 : BitVec 32 := Scalar.muli arg1 c256_i32
  let v4 : BitVec 32 := v3
  let v7 : Index := Scalar.indexCast v4
  ![0, v7.toNat]
def k0_cond2 (i : grid0.Coords) : BitVec 1 :=
  let arg1 : BitVec 32 := BitVec.ofNat 32 (i 1).val
  let c2_i32 : BitVec 32 := 2#32
  let v29 : BitVec 1 := Scalar.cmpi .eq arg1 c2_i32
  let v30 : BitVec 32 := Scalar.extui v29
  let c0_i32_12 : BitVec 32 := 0#32
  let v31 : BitVec 1 := Scalar.cmpi .ne v30 c0_i32_12
  v31

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S32x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S16x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S16x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S16x256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S16x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  inb_S16x32x768_S16x32x768_0_0_0 : ∀ a, (![0, 0, 0] : Fin 3 → Nat) a + S16x32x768.size a ≤ S16x32x768.size a
  h_S16x32x768 : 0 < S16x32x768.numel
  shapeCasts_S16x32x768_S16x32x768 : S16x32x768.ShapeCasts S16x32x768
  h_S32x256 : 0 < S32x256.numel
  h_S16x256 : 0 < S16x256.numel
  shapeCasts_S32x256_S1x32x256 : S32x256.ShapeCasts S1x32x256
  shapeCasts_S16x256_S16x1x256 : S16x256.ShapeCasts S16x1x256
  broadcasts_S1x32x256_S16x32x256 : S1x32x256.Broadcasts S16x32x256
  broadcasts_S16x1x256_S16x32x256 : S16x1x256.Broadcasts S16x32x256
  bitsLt_bf16_f32 : FTy.bits .bf16 < FTy.bits .f32
  inb_S16x256x768_S16x256x768_0_0_0 : ∀ a, (![0, 0, 0] : Fin 3 → Nat) a + S16x256x768.size a ≤ S16x256x768.size a
  h_S16x256x768 : 0 < S16x256x768.numel
  inb_S32x768_S32x768_0_0 : ∀ a, (![0, 0] : Fin 2 → Nat) a + S32x768.size a ≤ S32x768.size a
  h_S32x768 : 0 < S32x768.numel
  shapeCasts_S32x768_S1x32x768 : S32x768.ShapeCasts S1x32x768
  inb_S16x768_S16x768_0_0 : ∀ a, (![0, 0] : Fin 2 → Nat) a + S16x768.size a ≤ S16x768.size a
  h_S16x768 : 0 < S16x768.numel
  shapeCasts_S16x768_S16x1x768 : S16x768.ShapeCasts S16x1x768
  broadcasts_S1x32x768_S16x32x768 : S1x32x768.Broadcasts S16x32x768
  broadcasts_S16x1x768_S16x32x768 : S16x1x768.Broadcasts S16x32x768
  reduces_S16x32x768_S16x32 : S16x32x768.Reduces [2] S16x32
  inb_S16x32_S16x32_0_0 : ∀ a, (![0, 0] : Fin 2 → Nat) a + S16x32.size a ≤ S16x32.size a
  h_S16x32 : 0 < S16x32.numel
  transposes_S256x32_S32x256_1_0 : S256x32.Transposes [1, 0] S32x256
  dot_S16x32x256_S16x256x768_S16x32x768_2_1_1_2_0_0_wf : DotDims.WF S16x32x256 S16x256x768 S16x32x768 [2] [1] [1] [2] [0] [0]
  hrank0 : 0 < grid0.rank
  k0_mult1_dvd : ∀ i : grid0.Coords, 256 ∣ (k0_mult1 i).toNat
  k0_off1_inb : ∀ i : grid0.Coords, ∀ a, (k0_off1 i) a + S32x256.size a ≤ S32x768.size a
  k0_off2_inb : ∀ i : grid0.Coords, ∀ a, (k0_off2 i) a + S16x256.size a ≤ S16x768.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S32x768.size a ≤ S32x768.size a
  hwx0_0 : ∀ i : grid0.Coords, EltTy.bits .f32 = 32 ∨ (Rect.block (s := S32x768) S32x768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x768.size a ≤ S256x768.size a
  hwx0_1 : ∀ i : grid0.Coords, EltTy.bits .f32 = 32 ∨ (Rect.block (s := S256x768) S16x768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x768.size a ≤ S256x768.size a
  hwx0_2 : ∀ i : grid0.Coords, EltTy.bits .f32 = 32 ∨ (Rect.block (s := S256x768) S16x768.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x256x768.size a ≤ S256x768x768.size a
  hwx0_3 : ∀ i : grid0.Coords, EltTy.bits .f32 = 32 ∨ (Rect.block (s := S256x768x768) S16x256x768.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S16x32.size a ≤ S256x32.size a
  hwx0_4 : ∀ i : grid0.Coords, EltTy.bits .f32 = 32 ∨ (Rect.block (s := S256x32) S16x32.size (cc0_transform_4 i) (hinb0_4 i)).WholeWords (EltTy.packing .f32)

variable [Facts₀]

def dot_S16x32x256_S16x256x768_S16x32x768_2_1_1_2_0_0 : DotDims S16x32x256 S16x256x768 S16x32x768 where
  lhsContracting := [2]
  rhsContracting := [1]
  lhsNonContracting := [1]
  rhsNonContracting := [2]
  lhsBatch := [0]
  rhsBatch := [0]
  wf := dot_S16x32x256_S16x256x768_S16x32x768_2_1_1_2_0_0_wf

abbrev win0_0 : Pipeline.Window sig grid0 :=
  Pipeline.Window.ofSpec (Memref.whole main_arg0) S32x768.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16x768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S16x768.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S16x256x768.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S16x32.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S32x768 : Shape := ⟨2, ![32, 768]⟩
abbrev S256x768 : Shape := ⟨2, ![256, 768]⟩
abbrev S256x768x768 : Shape := ⟨3, ![256, 768, 768]⟩
abbrev S1x32x768 : Shape := ⟨3, ![1, 32, 768]⟩
abbrev S256x1x768 : Shape := ⟨3, ![256, 1, 768]⟩
abbrev S256x32x768 : Shape := ⟨3, ![256, 32, 768]⟩
abbrev S_ : Shape := ⟨0, ![]⟩
abbrev S256x32 : Shape := ⟨2, ![256, 32]⟩
abbrev S32x256 : Shape := ⟨2, ![32, 256]⟩

abbrev nBuf : Space → Nat
  | .hbm => 19
  | .vmem => 0
  | .smem => 0
  | _ => 0

abbrev bufTy : (tb : Table) → Fin (tcTables nBuf tb) → BufTy
  | .hbm, ⟨0, _⟩ => ⟨S32x768, .f32⟩
  | .hbm, ⟨1, _⟩ => ⟨S256x768, .f32⟩
  | .hbm, ⟨2, _⟩ => ⟨S256x768, .f32⟩
  | .hbm, ⟨3, _⟩ => ⟨S256x768x768, .f32⟩
  | .hbm, ⟨4, _⟩ => ⟨S1x32x768, .f32⟩
  | .hbm, ⟨5, _⟩ => ⟨S256x1x768, .f32⟩
  | .hbm, ⟨6, _⟩ => ⟨S256x32x768, .f32⟩
  | .hbm, ⟨7, _⟩ => ⟨S256x32x768, .f32⟩
  | .hbm, ⟨8, _⟩ => ⟨S256x32x768, .f32⟩
  | .hbm, ⟨9, _⟩ => ⟨S256x768, .f32⟩
  | .hbm, ⟨10, _⟩ => ⟨S256x1x768, .f32⟩
  | .hbm, ⟨11, _⟩ => ⟨S256x32x768, .f32⟩
  | .hbm, ⟨12, _⟩ => ⟨S256x32x768, .f32⟩
  | .hbm, ⟨13, _⟩ => ⟨S256x32x768, .f32⟩
  | .hbm, ⟨14, _⟩ => ⟨S256x32x768, .f32⟩
  | .hbm, ⟨15, _⟩ => ⟨S_, .f32⟩
  | .hbm, ⟨16, _⟩ => ⟨S256x32, .f32⟩
  | .hbm, ⟨17, _⟩ => ⟨S32x256, .f32⟩
  | .hbm, ⟨18, _⟩ => ⟨S32x256, .f32⟩
  | _, _ => ⟨S32x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]

class Facts₀ : Prop where
  bcast_S32x768_S1x32x768_1_2 : S32x768.BroadcastsInDim S1x32x768 (![1, 2] : Fin 2 → Fin S1x32x768.rank)
  bcast_S256x768_S256x1x768_0_2 : S256x768.BroadcastsInDim S256x1x768 (![0, 2] : Fin 2 → Fin S256x1x768.rank)
  bcast_S1x32x768_S256x32x768_0_1_2 : S1x32x768.BroadcastsInDim S256x32x768 (![0, 1, 2] : Fin 3 → Fin S256x32x768.rank)
  bcast_S256x1x768_S256x32x768_0_1_2 : S256x1x768.BroadcastsInDim S256x32x768 (![0, 1, 2] : Fin 3 → Fin S256x32x768.rank)
  reducesTo_S256x32x768_S256x32_d2 : S256x32x768.ReducesTo [2] S256x32
  h_S_ : 0 < S_.numel
  transposes_S256x32_S32x256_1_0 : S256x32.Transposes [1, 0] S32x256
  dot_S256x32x768_S256x768x768_S256x32x768_2_1_1_2_0_0_wf : DotDims.WF S256x32x768 S256x768x768 S256x32x768 [2] [1] [1] [2] [0] [0]

variable [Facts₀]

def dot_S256x32x768_S256x768x768_S256x32x768_2_1_1_2_0_0 : DotDims S256x32x768 S256x768x768 S256x32x768 where
  lhsContracting := [2]
  rhsContracting := [1]
  lhsNonContracting := [1]
  rhsNonContracting := [2]
  lhsBatch := [0]
  rhsBatch := [0]
  wf := dot_S256x32x768_S256x768x768_S256x32x768_2_1_1_2_0_0_wf

class Facts : Prop extends Facts₀ where

variable [Facts]
-- ==== Proof.Spec.lean ====
/-
  The score both programs compute, as ONE function of the four argument arrays, over the extended reals.

  For a class `c`, a sample `b` and a feature `d` the NORMALIZED DIFFERENCE is
      nd c b d = x[b,d] / σ[c,d] − μ[c,d] / σ[c,d],
  its PROJECTION through the class's matrix is  proj c b e = ∑_d nd c b d · Λ[c,d,e],  the QUADRATIC FORM is
      quad c b = ∑_e proj c b e · nd c b e,
  and the score at (b, c) is  −quad c b.

  The one law the two programs differ by: a sum over the 768 features is the sum of its three consecutive runs of 256
  (`sum_runs`), a fact of any commutative monoid — so nothing here asks the inputs to be finite.
-/
import Idealize.ShloMosaic.PureOps.Ideal
import Idealize.ShloMosaic.Lib.ValueIdx

noncomputable section

namespace Cert.Score

open Idealize.ShloMosaic Idealize.ShloMosaic.ValueIdx

/-- Feature `256·j + k`: position `k` of the `j`-th run of 256 features (`j < 3`; reduced mod 768 so that it is a
    feature for every `j`). -/
abbrev featAt (j : ℕ) (k : Fin 256) : Fin 768 := ⟨(256 * j + k.val) % 768, Nat.mod_lt _ (by decide)⟩

/-- Class `16·i + r`: row `r` of the `i`-th group of 16 classes (`i < 16`; reduced mod 256 likewise). -/
abbrev classAt (i : ℕ) (r : Fin 16) : Fin 256 := ⟨(16 * i + r.val) % 256, Nat.mod_lt _ (by decide)⟩

/-- Over the naturals: the first 768 terms of a sequence, summed, are the three consecutive runs of 256 summed. -/
theorem sum_range_runs {M : Type*} [AddCommMonoid M] (g : ℕ → M) :
    ∑ n ∈ Finset.range 768, g n = ∑ j ∈ Finset.range 3, ∑ k : Fin 256, g (256 * j + k.val) := by
  have hr : ∑ j ∈ Finset.range 3, ∑ k : Fin 256, g (256 * j + k.val)
      = ∑ n ∈ Finset.range 256, g (256 * 0 + n)
        + (∑ n ∈ Finset.range 256, g (256 * 1 + n) + ∑ n ∈ Finset.range 256, g (256 * 2 + n)) := by
    rw [Finset.sum_range_succ (fun j => ∑ k : Fin 256, g (256 * j + k.val)) 2,
      Finset.sum_range_succ (fun j => ∑ k : Fin 256, g (256 * j + k.val)) 1,
      Finset.sum_range_one (fun j => ∑ k : Fin 256, g (256 * j + k.val)), add_assoc,
      Fin.sum_univ_eq_sum_range (fun n => g (256 * 0 + n)) 256, Fin.sum_univ_eq_sum_range (fun n => g (256 * 1 + n)) 256,
      Fin.sum_univ_eq_sum_range (fun n => g (256 * 2 + n)) 256]
  rw [hr, show (768 : ℕ) = 256 + (256 + 256) from rfl, Finset.sum_range_add, Finset.sum_range_add]
  refine congrArg₂ (· + ·) (Finset.sum_congr rfl fun n _ => congrArg g ?_)
    (congrArg₂ (· + ·) (Finset.sum_congr rfl fun n _ => congrArg g ?_) (Finset.sum_congr rfl fun n _ => congrArg g ?_))
  all_goals omega

/-- A sum over the 768 features is the sum over the three runs of the sums inside each run. -/
theorem sum_runs {M : Type*} [AddCommMonoid M] (f : Fin 768 → M) :
    ∑ d : Fin 768, f d = ∑ j ∈ Finset.range 3, ∑ k : Fin 256, f (featAt j k) := by
  have hg : ∀ d : Fin 768, f d = (fun n : ℕ => f ⟨n % 768, Nat.mod_lt _ (by decide)⟩) d.val := fun d =>
    congrArg f (Fin.ext (Nat.mod_eq_of_lt d.isLt).symm)
  rw [Finset.sum_congr rfl fun d _ => hg d, Fin.sum_univ_eq_sum_range (fun n : ℕ => f ⟨n % 768, Nat.mod_lt _ (by decide)⟩) 768]
  exact sum_range_runs fun n : ℕ => f ⟨n % 768, Nat.mod_lt _ (by decide)⟩

variable (x : (⟨2, ![32, 768]⟩ : Shape).Idx → EReal) (μ σ : (⟨2, ![256, 768]⟩ : Shape).Idx → EReal)
  (Λ : (⟨3, ![256, 768, 768]⟩ : Shape).Idx → EReal)

/-- The normalized difference of sample `b` from class `c` at feature `d`. -/
def nd (c : Fin 256) (b : Fin 32) (d : Fin 768) : EReal :=
  Ideal.div (x (ix2 b d)) (σ (ix2 c d)) - Ideal.div (μ (ix2 c d)) (σ (ix2 c d))

/-- Its projection through the class's matrix, at output feature `e`. -/
def proj (c : Fin 256) (b : Fin 32) (e : Fin 768) : EReal :=
  ∑ d : Fin 768, nd x μ σ c b d * Λ (ix3 c d e)

/-- The part of that projection contributed by the `j`-th run of 256 features. -/
def projRun (c : Fin 256) (b : Fin 32) (e : Fin 768) (j : ℕ) : EReal :=
  ∑ k : Fin 256, nd x μ σ c b (featAt j k) * Λ (ix3 c (featAt j k) e)

/-- The projection is the sum of its three runs. -/
theorem proj_eq_runs (c : Fin 256) (b : Fin 32) (e : Fin 768) :
    proj x μ σ Λ c b e = ∑ j ∈ Finset.range 3, projRun x μ σ Λ c b e j :=
  sum_runs fun d => nd x μ σ c b d * Λ (ix3 c d e)

/-- The quadratic form of sample `b` against class `c`. -/
def quad (c : Fin 256) (b : Fin 32) : EReal :=
  ∑ e : Fin 768, proj x μ σ Λ c b e * nd x μ σ c b e

/-- The scores: at (sample `b`, class `c`), minus the quadratic form. -/
def score : (⟨2, ![32, 256]⟩ : Shape).Idx → EReal := fun i => -quad x μ σ Λ (i 1) (i 0)

end Cert.Score

end
-- ==== Proof.RefScore.lean ====
/-
  The reference's result is the score.

  Read one operation at a time, the reference forms the normalized difference `x[b,d] / σ[c,d] − μ[c,d] / σ[c,d]` once,
  as a [256, 32, 768] array, contracts it with the class matrices over the feature axis, multiplies by the same
  difference, sums over the last axis from zero, transposes to (sample, class) and negates: index by index that is
  `Cert.Score.score`.
-/
import proofs.«112858_j25185688224305_1_alg».proof.Proof.Gen.ReferenceIdeal.Read
import proofs.«112858_j25185688224305_1_alg».proof.Proof.Spec

noncomputable section

namespace Cert.Score.Ref

open Idealize.ShloMosaic Idealize.ShloMosaic.ValueIdx Idealize.ShloMosaic.StableHlo
open Cert.ReferenceIdeal Cert.ReferenceIdeal.Gen Cert.ReferenceIdeal.Read

/-- The reference's last stage, at the ideal instance, is the score of its four arguments. -/
theorem ref_eq_score (x0 : (⟨S32x768, .f32⟩ : BufTy).Contents (Elt Ideal)) (x1 x2 : (⟨S256x768, .f32⟩ : BufTy).Contents (Elt Ideal))
    (x3 : (⟨S256x768x768, .f32⟩ : BufTy).Contents (Elt Ideal)) :
    val_main_v13 (F := Ideal) x0 x1 x2 x3 = Cert.Score.score x0 x1 x2 x3 := by
  -- The difference stage at (class c, sample b, feature d) is the normalized difference: the two broadcasts of x
  -- read x[b,d], the two broadcasts of σ read σ[c,d], and the broadcasts of the quotient μ/σ read it at [c,d].
  have hnd : ∀ (c : Fin 256) (b : Fin 32) (d : Fin 768),
      val_main_v8 (F := Ideal) x0 x1 x2 (ix3 c b d) = Cert.Score.nd x0 x1 x2 c b d := by
    intro c b d
    rw [val_main_v8_apply, val_main_v4_apply, val_main_v2_apply, val_main_v0_apply, val_main_v3_apply,
      val_main_v1_apply, val_main_v7_apply, val_main_v6_apply, val_main_v5_apply]
    have e0 : idx_main_v0 (idx_main_v2 (ix3 c b d)) = ix2 b d :=
      funext fun a => Fin.ext (by match a with | ⟨0, _⟩ => rfl | ⟨1, _⟩ => rfl)
    have e1 : idx_main_v1 (idx_main_v3 (ix3 c b d)) = ix2 c d :=
      funext fun a => Fin.ext (by match a with | ⟨0, _⟩ => rfl | ⟨1, _⟩ => rfl)
    have e6 : idx_main_v6 (idx_main_v7 (ix3 c b d)) = ix2 c d :=
      funext fun a => Fin.ext (by match a with | ⟨0, _⟩ => rfl | ⟨1, _⟩ => rfl)
    rw [e0, e1, e6, Ideal.hostDivf_def, Ideal.hostDivf_def, Ideal.subf_def]
    rfl
  -- At (sample b, class c): the negation of the transposed sum from zero over the output feature e.
  funext i
  obtain ⟨b, c, rfl⟩ : ∃ (b : Fin 32) (c : Fin 256), i = ix2 b c := ⟨i 0, i 1, eq_ix2 i⟩
  rw [val_main_v13_apply, val_main_v12_apply, val_main_v11_apply, val_main_cst_apply, Ideal.ofBits_def,
    Ideal.ofBits_zero_f32, zero_add, Ideal.hostNegf_def, Ideal.negf_def]
  show -_ = -Cert.Score.quad x0 x1 x2 x3 c b
  refine congrArg Neg.neg (Finset.sum_congr rfl fun e _ => ?_)
  -- The summand at e is (contraction over d of difference · Λ[c,d,e]) · difference at e, in that order.
  rw [val_main_v10_apply, Ideal.mulf_def, val_main_v9_apply]
  have e8 : idx_main_v11 (idx_main_v12 (ix2 b c)) e = ix3 c b e :=
    funext fun a => Fin.ext (by match a with | ⟨0, _⟩ => rfl | ⟨1, _⟩ => rfl | ⟨2, _⟩ => rfl)
  rw [e8, hnd]
  refine congrArg (· * _) (Finset.sum_congr rfl fun d _ => ?_)
  have el : lidx_main_v9 (ix3 c b e) d = ix3 c b d :=
    funext fun a => Fin.ext (by match a with | ⟨0, _⟩ => rfl | ⟨1, _⟩ => rfl | ⟨2, _⟩ => rfl)
  have er : ridx_main_v9 (ix3 c b e) d = ix3 c d e :=
    funext fun a => Fin.ext (by match a with | ⟨0, _⟩ => rfl | ⟨1, _⟩ => rfl | ⟨2, _⟩ => rfl)
  rw [el, er, hnd]

end Cert.Score.Ref

end
-- ==== Proof.Cases.lean ====
/-
  What each control case of the kernel body leaves, as the body's stored values of the staged blocks.

  The body runs in one of three cases, by the position `j` of the grid point inside its group of three:
    first  (j = 0): the accumulator is reset to zero, the current run's product is added to it;
    middle (j = 1): the current run's product is added to what the point before left;
    last   (j = 2): the same, and the output block is written from the accumulator just updated.
  The current run's operands are the columns `256·j … 256·j + 255` of the staged sample, mean and scale blocks
  (`runOfSamples`, `runOfClasses`: a load through the unit-stride rectangle at that column offset).
  Every store covers its whole buffer, so what is left is the last store's value; a load that follows a covering store in
  the same run reads that store's value.
-/
import proofs.«112858_j25185688224305_1_alg».proof.Proof.Gen.KernelIdeal.Frame
import Idealize.ShloMosaic.Lib.Pipeline.Value
import Idealize.ShloMosaic.Lib.Tactic

set_option maxRecDepth 16384

noncomputable section

namespace Cert.KernelIdeal.Cases

open Idealize.ShloMosaic Idealize.ShloMosaic.TcCoe Idealize.SL.Sem Idealize.ShloMosaic.Tactic
open Cert.KernelIdeal Cert.KernelIdeal.Gen

variable {F : FTy → Type} [FloatOps F]

theorem zeros3 : (![0, 0, 0] : Fin 3 → Nat) = fun _ => 0 := funext fun a => by fin_cases a <;> rfl
theorem zeros2 : (![0, 0] : Fin 2 → Nat) = fun _ => 0 := funext fun a => by fin_cases a <;> rfl

/-- The current run's 256 columns of the staged [32, 768] sample block. -/
def runOfSamples (i : grid0.Coords) (x : Vec F S32x768 .f32) : Vec F S32x256 .f32 :=
  View.ld x (Rect.unit (s := S32x768) (k0_off1 i) S32x256.size (k0_off1_inb i))

/-- The current run's 256 columns of a staged [16, 768] class block (means or scales). -/
def runOfClasses (i : grid0.Coords) (x : Vec F S16x768 .f32) : Vec F S16x256 .f32 :=
  View.ld x (Rect.unit (s := S16x768) (k0_off2 i) S16x256.size (k0_off2_inb i))

/-- The accumulator after a point whose body found it at `acc`: the accumulation's stored value. -/
def accAfter (i : grid0.Coords) (x0 : Vec F S32x768 .f32) (x1 x2 : Vec F S16x768 .f32) (x3 : Vec F S16x256x768 .f32)
    (acc : Vec F S16x32x768 .f32) : Vec F S16x32x768 .f32 :=
  k0_pay2 (runOfSamples i x0) (runOfClasses i x1) (runOfClasses i x2) x3 acc

/-- First case: the accumulator ends at the accumulation's value over the zero the reset stored. -/
theorem acc_first (c : Dev nD) (i : grid0.Coords) (arg2 : Memref sig .tc .vmem S32x768 .f32) (harg2 : arg2.IsWhole) (arg3 : Memref sig .tc .vmem S16x768 .f32) (harg3 : arg3.IsWhole) (arg4 : Memref sig .tc .vmem S16x768 .f32) (harg4 : arg4.IsWhole) (arg5 : Memref sig .tc .vmem S16x256x768 .f32) (harg5 : arg5.IsWhole) (arg6 : Memref sig .tc .vmem S16x32 .f32) (harg6 : arg6.IsWhole) (arg7 : Memref sig .tc .vmem S16x32x768 .f32) (harg7 : arg7.IsWhole) (hc0 : cond0_0 i) (hc1 : ¬cond0_1 i)
    (x0 : Vec F S32x768 .f32) (x1 : Vec F S16x768 .f32) (x2 : Vec F S16x768 .f32) (x3 : Vec F S16x256x768 .f32) :
    sout0_A_0 c i arg2 harg2 arg3 harg3 arg4 harg4 arg5 harg5 arg6 harg6 arg7 harg7 hc0 hc1 x0 x1 x2 x3 = accAfter i x0 x1 x2 x3 k0_pay1 := by
  unfold sout0_A_0
  rw [View.read_writes_eq_canon _ _ _ (scover0_A_0 c i arg2 harg2 arg3 harg3 arg4 harg4 arg5 harg5 arg6 harg6 arg7 harg7 hc0 hc1 x0 x1 x2 x3)]
  unfold kernelRun0_A
  dsimp only
  sl_unfold_words
  rw [View.canon_cons_unit_zero (S := S16x32x768) zeros3, View.readCov_unit_zero (S := S16x32x768) _ zeros3]
  simp only [View.readAt_eq_ld, harg2.read_unread, harg3.read_unread, harg4.read_unread, harg5.read_unread,
    View.ld_unit_zero (S := S16x256x768) zeros3]
  rfl

/-- Middle case: the accumulation's value over what the point before left. -/
theorem acc_middle (c : Dev nD) (i : grid0.Coords) (arg2 : Memref sig .tc .vmem S32x768 .f32) (harg2 : arg2.IsWhole) (arg3 : Memref sig .tc .vmem S16x768 .f32) (harg3 : arg3.IsWhole) (arg4 : Memref sig .tc .vmem S16x768 .f32) (harg4 : arg4.IsWhole) (arg5 : Memref sig .tc .vmem S16x256x768 .f32) (harg5 : arg5.IsWhole) (arg6 : Memref sig .tc .vmem S16x32 .f32) (harg6 : arg6.IsWhole) (arg7 : Memref sig .tc .vmem S16x32x768 .f32) (harg7 : arg7.IsWhole) (hc0 : ¬cond0_0 i) (hc1 : ¬cond0_1 i)
    (x0 : Vec F S32x768 .f32) (x1 : Vec F S16x768 .f32) (x2 : Vec F S16x768 .f32) (x3 : Vec F S16x256x768 .f32) (xs0 : Vec F S16x32x768 .f32) :
    sout0_B_0 c i arg2 harg2 arg3 harg3 arg4 harg4 arg5 harg5 arg6 harg6 arg7 harg7 hc0 hc1 x0 x1 x2 x3 xs0 = accAfter i x0 x1 x2 x3 xs0 := by
  unfold sout0_B_0
  rw [View.read_writes_eq_canon _ _ _ (scover0_B_0 c i arg2 harg2 arg3 harg3 arg4 harg4 arg5 harg5 arg6 harg6 arg7 harg7 hc0 hc1 x0 x1 x2 x3 xs0)]
  unfold kernelRun0_B
  dsimp only
  sl_unfold_words
  rw [View.canon_unit_zero (S := S16x32x768) zeros3]
  simp only [View.readAt_eq_ld, harg2.read_unread, harg3.read_unread, harg4.read_unread, harg5.read_unread, harg7.read_unread,
    View.ld_unit_zero (S := S16x256x768) zeros3, View.ld_unit_zero (S := S16x32x768) zeros3]
  rfl

/-- Last case, the accumulator: the same. -/
theorem acc_last (c : Dev nD) (i : grid0.Coords) (arg2 : Memref sig .tc .vmem S32x768 .f32) (harg2 : arg2.IsWhole) (arg3 : Memref sig .tc .vmem S16x768 .f32) (harg3 : arg3.IsWhole) (arg4 : Memref sig .tc .vmem S16x768 .f32) (harg4 : arg4.IsWhole) (arg5 : Memref sig .tc .vmem S16x256x768 .f32) (harg5 : arg5.IsWhole) (arg6 : Memref sig .tc .vmem S16x32 .f32) (harg6 : arg6.IsWhole) (arg7 : Memref sig .tc .vmem S16x32x768 .f32) (harg7 : arg7.IsWhole) (hc0 : ¬cond0_0 i) (hc1 : cond0_1 i)
    (x0 : Vec F S32x768 .f32) (x1 : Vec F S16x768 .f32) (x2 : Vec F S16x768 .f32) (x3 : Vec F S16x256x768 .f32) (xs0 : Vec F S16x32x768 .f32) :
    sout0_C_0 c i arg2 harg2 arg3 harg3 arg4 harg4 arg5 harg5 arg6 harg6 arg7 harg7 hc0 hc1 x0 x1 x2 x3 xs0 = accAfter i x0 x1 x2 x3 xs0 := by
  unfold sout0_C_0
  rw [View.read_writes_eq_canon _ _ _ (scover0_C_0 c i arg2 harg2 arg3 harg3 arg4 harg4 arg5 harg5 arg6 harg6 arg7 harg7 hc0 hc1 x0 x1 x2 x3 xs0)]
  unfold kernelRun0_C
  dsimp only
  sl_unfold_words
  rw [View.canon_unit_zero (S := S16x32x768) zeros3]
  simp only [View.readAt_eq_ld, harg2.read_unread, harg3.read_unread, harg4.read_unread, harg5.read_unread, harg7.read_unread,
    View.ld_unit_zero (S := S16x256x768) zeros3, View.ld_unit_zero (S := S16x32x768) zeros3]
  rfl

/-- Last case, the output block: the last step's value of the whole staged blocks and of the accumulator just updated. -/
theorem out_last (c : Dev nD) (i : grid0.Coords) (arg2 : Memref sig .tc .vmem S32x768 .f32) (harg2 : arg2.IsWhole) (arg3 : Memref sig .tc .vmem S16x768 .f32) (harg3 : arg3.IsWhole) (arg4 : Memref sig .tc .vmem S16x768 .f32) (harg4 : arg4.IsWhole) (arg5 : Memref sig .tc .vmem S16x256x768 .f32) (harg5 : arg5.IsWhole) (arg6 : Memref sig .tc .vmem S16x32 .f32) (harg6 : arg6.IsWhole) (arg7 : Memref sig .tc .vmem S16x32x768 .f32) (harg7 : arg7.IsWhole) (hc0 : ¬cond0_0 i) (hc1 : cond0_1 i)
    (x0 : Vec F S32x768 .f32) (x1 : Vec F S16x768 .f32) (x2 : Vec F S16x768 .f32) (x3 : Vec F S16x256x768 .f32) (xs0 : Vec F S16x32x768 .f32) :
    out0_C_4 c i arg2 harg2 arg3 harg3 arg4 harg4 arg5 harg5 arg6 harg6 arg7 harg7 hc0 hc1 x0 x1 x2 x3 xs0 = k0_pay3 x0 x2 x1 x2 (accAfter i x0 x1 x2 x3 xs0) := by
  unfold out0_C_4
  rw [View.read_writes_eq_canon _ _ _ (cover0_C_4 c i arg2 harg2 arg3 harg3 arg4 harg4 arg5 harg5 arg6 harg6 arg7 harg7 hc0 hc1 x0 x1 x2 x3 xs0)]
  unfold kernelRun0_C
  dsimp only
  sl_unfold_words
  rw [View.canon_unit_zero (S := S16x32) zeros2]
  simp only [View.readAt_eq_ld, harg2.read_unread, harg3.read_unread, harg4.read_unread, harg5.read_unread, harg7.read_unread,
    View.readCov_unit_zero (S := S16x32x768) _ zeros3,
    View.ld_unit_zero (S := S32x768) zeros2, View.ld_unit_zero (S := S16x768) zeros2,
    View.ld_unit_zero (S := S16x256x768) zeros3, View.ld_unit_zero (S := S16x32x768) zeros3]
  rfl

end Cert.KernelIdeal.Cases

end
-- ==== Proof.Blocks.lean ====
/-
  Where a staged block's entry sits in its argument array, and which columns the current run reads.

  Grid point `t` (48 points, row-major over 16 class groups × 3 feature runs) is group `t / 3`, run `t % 3`.
  At it the sample window stages the whole [32, 768] array; the mean and scale windows stage rows
  `16·(t/3) … 16·(t/3) + 15` of their [256, 768] arrays; the matrix window stages, of the [256, 768, 768] array, those
  classes' rows `256·(t%3) … 256·(t%3) + 255` (all 768 columns); the output window is rows `16·(t/3) …` of the
  [256, 32] result. A block's coordinate in the array is always block index × block size + the coordinate inside the
  block; the block indices are decided once over the grid.
-/
import proofs.«112858_j25185688224305_1_alg».proof.Proof.Cases
import proofs.«112858_j25185688224305_1_alg».proof.Proof.Spec

set_option maxRecDepth 16384

noncomputable section

namespace Cert.KernelIdeal.Blocks

open Idealize.ShloMosaic Idealize.ShloMosaic.TcCoe Idealize.SL.Sem Idealize.ShloMosaic.ValueIdx
open Cert.KernelIdeal Cert.KernelIdeal.Gen Cert.KernelIdeal.Cases Cert.Score

variable {F : FTy → Type} [FloatOps F]
variable (m : (ℓ : Loc nD τ sig) → Buf (Elt F) ℓ)

/-- The staged blocks at a point and the argument arrays, each at its literal type. -/
abbrev xblk (c : Dev nD) (t : Fin cfg0.N) : Vec F S32x768 .f32 := iblk m c 0 t
abbrev mblk (c : Dev nD) (t : Fin cfg0.N) : Vec F S16x768 .f32 := iblk m c 1 t
abbrev sblk (c : Dev nD) (t : Fin cfg0.N) : Vec F S16x768 .f32 := iblk m c 2 t
abbrev cblk (c : Dev nD) (t : Fin cfg0.N) : Vec F S16x256x768 .f32 := iblk m c 3 t
abbrev xarr (c : Dev nD) : Vec F S32x768 .f32 := V m c main_arg0
abbrev marr (c : Dev nD) : Vec F S256x768 .f32 := V m c main_arg1
abbrev sarr (c : Dev nD) : Vec F S256x768 .f32 := V m c main_arg2
abbrev carr (c : Dev nD) : Vec F S256x768x768 .f32 := V m c main_arg3

/-- The windows' block indices at point `t`: group `t / 3` on the class axis, run `t % 3` on the matrix's row axis, zero elsewhere. -/
theorem block_index : ∀ t : Fin cfg0.N,
    win0_0.index t 0 = 0 ∧ win0_0.index t 1 = 0
    ∧ win0_1.index t 0 = t.val / 3 ∧ win0_1.index t 1 = 0
    ∧ win0_2.index t 0 = t.val / 3 ∧ win0_2.index t 1 = 0
    ∧ win0_3.index t 0 = t.val / 3 ∧ win0_3.index t 1 = t.val % 3 ∧ win0_3.index t 2 = 0
    ∧ win0_4.index t 0 = t.val / 3 ∧ win0_4.index t 1 = 0 :=
  (by decide +kernel : ∀ t : Fin grid0.N, _)

/-- The column offset of the current run's loads: `256·(t % 3)`. -/
theorem run_offset : ∀ t : Fin cfg0.N,
    k0_off1 (grid0.coords t) 0 = 0 ∧ k0_off1 (grid0.coords t) 1 = 256 * (t.val % 3)
    ∧ k0_off2 (grid0.coords t) 0 = 0 ∧ k0_off2 (grid0.coords t) 1 = 256 * (t.val % 3) :=
  (by decide +kernel : ∀ t : Fin grid0.N, _)

theorem xblk_at (c : Dev nD) (t : Fin cfg0.N) (b : Fin 32) (d : Fin 768) :
    xblk m c t (ix2 b d) = xarr m c (ix2 b d) := by
  obtain ⟨h0, h1, -⟩ := block_index t
  unfold xblk iblk
  rw [View.read_apply]
  show V m c main_arg0 _ = V m c main_arg0 _
  congr 1
  funext a
  apply Fin.ext
  match a with
  | ⟨0, _⟩ => show win0_0.index t 0 * 32 + 1 * b.val = b.val; rw [h0]; omega
  | ⟨1, _⟩ => show win0_0.index t 1 * 768 + 1 * d.val = d.val; rw [h1]; omega

theorem mblk_at (c : Dev nD) (t : Fin cfg0.N) (r : Fin 16) (d : Fin 768) :
    mblk m c t (ix2 r d) = marr m c (ix2 (classAt (t.val / 3) r) d) := by
  obtain ⟨-, -, h0, h1, -⟩ := block_index t
  have hN : t.val < 48 := lt_of_lt_of_eq t.isLt (show cfg0.N = 48 from N_0)
  unfold mblk iblk
  rw [View.read_apply]
  show V m c main_arg1 _ = V m c main_arg1 _
  congr 1
  funext a
  apply Fin.ext
  match a with
  | ⟨0, _⟩ => show win0_1.index t 0 * 16 + 1 * r.val = (16 * (t.val / 3) + r.val) % 256; rw [h0]; omega
  | ⟨1, _⟩ => show win0_1.index t 1 * 768 + 1 * d.val = d.val; rw [h1]; omega

theorem sblk_at (c : Dev nD) (t : Fin cfg0.N) (r : Fin 16) (d : Fin 768) :
    sblk m c t (ix2 r d) = sarr m c (ix2 (classAt (t.val / 3) r) d) := by
  obtain ⟨-, -, -, -, h0, h1, -⟩ := block_index t
  have hN : t.val < 48 := lt_of_lt_of_eq t.isLt (show cfg0.N = 48 from N_0)
  unfold sblk iblk
  rw [View.read_apply]
  show V m c main_arg2 _ = V m c main_arg2 _
  congr 1
  funext a
  apply Fin.ext
  match a with
  | ⟨0, _⟩ => show win0_2.index t 0 * 16 + 1 * r.val = (16 * (t.val / 3) + r.val) % 256; rw [h0]; omega
  | ⟨1, _⟩ => show win0_2.index t 1 * 768 + 1 * d.val = d.val; rw [h1]; omega

theorem cblk_at (c : Dev nD) (t : Fin cfg0.N) (r : Fin 16) (k : Fin 256) (e : Fin 768) :
    cblk m c t (ix3 r k e) = carr m c (ix3 (classAt (t.val / 3) r) (featAt (t.val % 3) k) e) := by
  obtain ⟨-, -, -, -, -, -, h0, h1, h2, -⟩ := block_index t
  have hN : t.val < 48 := lt_of_lt_of_eq t.isLt (show cfg0.N = 48 from N_0)
  unfold cblk iblk
  rw [View.read_apply]
  show V m c main_arg3 _ = V m c main_arg3 _
  congr 1
  funext a
  apply Fin.ext
  match a with
  | ⟨0, _⟩ => show win0_3.index t 0 * 16 + 1 * r.val = (16 * (t.val / 3) + r.val) % 256; rw [h0]; omega
  | ⟨1, _⟩ => show win0_3.index t 1 * 256 + 1 * k.val = (256 * (t.val % 3) + k.val) % 768; rw [h1]; omega
  | ⟨2, _⟩ => show win0_3.index t 2 * 768 + 1 * e.val = e.val; rw [h2]; omega

/-- The run's columns of a [32, 768] block: column `k` of the run is column `256·(t%3) + k` of the block. -/
theorem runOfSamples_at (t : Fin cfg0.N) (x : Vec F S32x768 .f32) (b : Fin 32) (k : Fin 256) :
    runOfSamples (grid0.coords t) x (ix2 b k) = x (ix2 b (featAt (t.val % 3) k)) := by
  obtain ⟨h0, h1, -⟩ := run_offset t
  unfold runOfSamples
  show x _ = x _
  congr 1
  funext a
  apply Fin.ext
  match a with
  | ⟨0, _⟩ => show k0_off1 (grid0.coords t) 0 + 1 * b.val = b.val; rw [h0]; omega
  | ⟨1, _⟩ => show k0_off1 (grid0.coords t) 1 + 1 * k.val = (256 * (t.val % 3) + k.val) % 768; rw [h1]; omega

/-- The same of a [16, 768] block. -/
theorem runOfClasses_at (t : Fin cfg0.N) (x : Vec F S16x768 .f32) (r : Fin 16) (k : Fin 256) :
    runOfClasses (grid0.coords t) x (ix2 r k) = x (ix2 r (featAt (t.val % 3) k)) := by
  obtain ⟨-, -, h0, h1⟩ := run_offset t
  unfold runOfClasses
  show x _ = x _
  congr 1
  funext a
  apply Fin.ext
  match a with
  | ⟨0, _⟩ => show k0_off2 (grid0.coords t) 0 + 1 * r.val = r.val; rw [h0]; omega
  | ⟨1, _⟩ => show k0_off2 (grid0.coords t) 1 + 1 * k.val = (256 * (t.val % 3) + k.val) % 768; rw [h1]; omega

end Cert.KernelIdeal.Blocks

end
-- ==== Proof.Stored.lean ====
/-
  The kernel body's three stored values, read at an index over the extended reals.

  The reset stores zero everywhere. The accumulation stores, at (class row r, sample b, output feature e), what the
  accumulator held there plus the sum over the 256 features of the current run of the normalized difference times the
  class matrix's entry (the change of float format before the product is the identity on the extended reals, and the
  product into a zero accumulator is the bare sum). The last step stores, at (r, b), zero minus the sum over the 768
  output features of the accumulator times the normalized difference.
-/
import proofs.«112858_j25185688224305_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Stored

open Idealize.ShloMosaic Idealize.ShloMosaic.ValueIdx
open Cert.KernelIdeal Cert.KernelIdeal.Gen

section Layout
variable {α : Type}

/-- An `[a, b]` array cast to `[a, 1, b]` reads, at `(i, u, j)`, the operand at `(i, j)`, whatever the unit coordinate `u`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- A `[1, b, c]` array broadcast to `[a, b, c]` reads, at `(p, q, r)`, the operand's one slab at `(q, r)`. -/
theorem broadcastTo_1bc_abc_apply {a b c : ℕ} (v : (⟨3, ![1, b, c]⟩ : Shape).Idx → α)
    (h : (⟨3, ![1, b, c]⟩ : Shape).Broadcasts ⟨3, ![a, b, c]⟩) (p : Fin a) (q : Fin b) (r : Fin c) :
    broadcastTo ⟨3, ![a, b, c]⟩ v h (ix3 p q r) = v (ix3 (0 : Fin 1) q r) := by
  refine broadcastTo_apply v h (ix3 p q r) (ix3 (0 : Fin 1) q r) fun ax => ?_
  match ax with
  | ⟨0, _⟩ => rfl
  | ⟨1, _⟩ =>
    show q.val = if b = 1 then 0 else q.val
    split
    · have := q.isLt; omega
    · rfl
  | ⟨2, _⟩ =>
    show r.val = if c = 1 then 0 else r.val
    split
    · have := r.isLt; omega
    · rfl

/-- An `[a, 1, c]` array broadcast to `[a, b, c]` reads, at `(p, q, r)`, the operand's one row of slab `p` at `r`. -/
theorem broadcastTo_a1c_abc_apply {a b c : ℕ} (v : (⟨3, ![a, 1, c]⟩ : Shape).Idx → α)
    (h : (⟨3, ![a, 1, c]⟩ : Shape).Broadcasts ⟨3, ![a, b, c]⟩) (p : Fin a) (q : Fin b) (r : Fin c) :
    broadcastTo ⟨3, ![a, b, c]⟩ v h (ix3 p q r) = v (ix3 p (0 : Fin 1) r) := by
  refine broadcastTo_apply v h (ix3 p q r) (ix3 p (0 : Fin 1) r) fun ax => ?_
  match ax with
  | ⟨0, _⟩ =>
    show p.val = if a = 1 then 0 else p.val
    split
    · have := p.isLt; omega
    · rfl
  | ⟨1, _⟩ => rfl
  | ⟨2, _⟩ =>
    show r.val = if c = 1 then 0 else r.val
    split
    · have := r.isLt; omega
    · rfl

end Layout

section Dot

/-- The left operand's index of the batched product at output index `i` and contraction index `q`: the batch axis follows `i`. -/
theorem lhs_dot_0 (i : S16x32x768.Idx) (q : dot_S16x32x256_S16x256x768_S16x32x768_2_1_1_2_0_0.contr.Idx) :
    (dot_S16x32x256_S16x256x768_S16x32x768_2_1_1_2_0_0.lhsIdx i q 0).val = (i 0).val := by
  unfold DotDims.lhsIdx
  rw [dif_pos (show (0 : Fin S16x32x256.rank) ∈ dot_S16x32x256_S16x256x768_S16x32x768_2_1_1_2_0_0.lhsBatch by decide)]
  rfl
/-- Its free axis follows `i`'s middle coordinate. -/
theorem lhs_dot_1 (i : S16x32x768.Idx) (q : dot_S16x32x256_S16x256x768_S16x32x768_2_1_1_2_0_0.contr.Idx) :
    (dot_S16x32x256_S16x256x768_S16x32x768_2_1_1_2_0_0.lhsIdx i q 1).val = (i 1).val := by
  unfold DotDims.lhsIdx
  rw [dif_neg (show ¬(1 : Fin S16x32x256.rank) ∈ dot_S16x32x256_S16x256x768_S16x32x768_2_1_1_2_0_0.lhsBatch by decide), dif_pos (show (1 : Fin S16x32x256.rank) ∈ dot_S16x32x256_S16x256x768_S16x32x768_2_1_1_2_0_0.lhsNonContracting by decide)]
  rfl
/-- Its contracted axis is the contraction coordinate. -/
theorem lhs_dot_2 (i : S16x32x768.Idx) (q : dot_S16x32x256_S16x256x768_S16x32x768_2_1_1_2_0_0.contr.Idx) :
    (dot_S16x32x256_S16x256x768_S16x32x768_2_1_1_2_0_0.lhsIdx i q 2).val = (q ⟨0, by decide⟩).val :=
  dot_S16x32x256_S16x256x768_S16x32x768_2_1_1_2_0_0.lhsIdx_val_of_single rfl i q
/-- The right operand's index: the batch axis follows `i`. -/
theorem rhs_dot_0 (i : S16x32x768.Idx) (q : dot_S16x32x256_S16x256x768_S16x32x768_2_1_1_2_0_0.contr.Idx) :
    (dot_S16x32x256_S16x256x768_S16x32x768_2_1_1_2_0_0.rhsIdx i q 0).val = (i 0).val := by
  unfold DotDims.rhsIdx
  rw [dif_pos (show (0 : Fin S16x256x768.rank) ∈ dot_S16x32x256_S16x256x768_S16x32x768_2_1_1_2_0_0.rhsBatch by decide)]
  rfl
/-- Its contracted axis is the contraction coordinate. -/
theorem rhs_dot_1 (i : S16x32x768.Idx) (q : dot_S16x32x256_S16x256x768_S16x32x768_2_1_1_2_0_0.contr.Idx) :
    (dot_S16x32x256_S16x256x768_S16x32x768_2_1_1_2_0_0.rhsIdx i q 1).val = (q ⟨0, by decide⟩).val :=
  dot_S16x32x256_S16x256x768_S16x32x768_2_1_1_2_0_0.rhsIdx_val_of_single rfl i q
/-- Its free axis follows `i`'s last coordinate. -/
theorem rhs_dot_2 (i : S16x32x768.Idx) (q : dot_S16x32x256_S16x256x768_S16x32x768_2_1_1_2_0_0.contr.Idx) :
    (dot_S16x32x256_S16x256x768_S16x32x768_2_1_1_2_0_0.rhsIdx i q 2).val = (i 2).val := by
  unfold DotDims.rhsIdx
  rw [dif_neg (show ¬(2 : Fin S16x256x768.rank) ∈ dot_S16x32x256_S16x256x768_S16x32x768_2_1_1_2_0_0.rhsBatch by decide), dif_pos (show (2 : Fin S16x256x768.rank) ∈ dot_S16x32x256_S16x256x768_S16x32x768_2_1_1_2_0_0.rhsNonContracting by decide)]
  rfl

/-- The batched product into the zero accumulator, read at (r, b, e): the sum over the 256 contracted features of the
    left operand at (r, b, k) times the right operand at (r, k, e). -/
theorem matmul_zero_at (x : FVec Ideal S16x32x256 .bf16) (y : FVec Ideal S16x256x768 .bf16) (r : Fin 16) (b : Fin 32) (e : Fin 768) :
    matmul dot_S16x32x256_S16x256x768_S16x32x768_2_1_1_2_0_0 none x y (constant (F := Ideal) S16x32x768 .f32 0x00000000#32) (ix3 r b e)
      = ∑ k : Fin 256, x (ix3 r b k) * y (ix3 r k e) := by
  simp only [matmul]
  rw [Ideal.matmul_constant_zero_apply, ← Equiv.sum_comp (ValueIdx.contrEquiv1 dot_S16x32x256_S16x256x768_S16x32x768_2_1_1_2_0_0 256 rfl rfl).symm]
  refine Finset.sum_congr rfl fun k _ => ?_
  have hk := ValueIdx.contrEquiv1_symm_val dot_S16x32x256_S16x256x768_S16x32x768_2_1_1_2_0_0 256 rfl rfl k
  have el : dot_S16x32x256_S16x256x768_S16x32x768_2_1_1_2_0_0.lhsIdx (ix3 r b e) ((ValueIdx.contrEquiv1 dot_S16x32x256_S16x256x768_S16x32x768_2_1_1_2_0_0 256 rfl rfl).symm k) = ix3 r b k := funext fun a => Fin.ext (by
    match a with
    | ⟨0, _⟩ => exact lhs_dot_0 _ _
    | ⟨1, _⟩ => exact lhs_dot_1 _ _
    | ⟨2, _⟩ => exact (lhs_dot_2 _ _).trans hk)
  have er : dot_S16x32x256_S16x256x768_S16x32x768_2_1_1_2_0_0.rhsIdx (ix3 r b e) ((ValueIdx.contrEquiv1 dot_S16x32x256_S16x256x768_S16x32x768_2_1_1_2_0_0 256 rfl rfl).symm k) = ix3 r k e := funext fun a => Fin.ext (by
    match a with
    | ⟨0, _⟩ => exact rhs_dot_0 _ _
    | ⟨1, _⟩ => exact (rhs_dot_1 _ _).trans hk
    | ⟨2, _⟩ => exact rhs_dot_2 _ _)
  rw [el, er]

end Dot

/-- The sum over the last axis of a [16, 32, 768] array, read at (r, b): the sum over the 768 coordinates e of the array at (r, b, e). -/
theorem laneSum_at (x : FVec Ideal S16x32x768 .f32) (hφ : FKind.Formats .f32)
    (hacc : (0x00000000#32 : BitVec 32) = FKind.add.neutral .f32 hφ) (r : Fin 16) (b : Fin 32) :
    multiReduction (F := Ideal) .add [2] S16x32 x 0x00000000#32 reduces_S16x32x768_S16x32 hφ hacc (ix2 r b)
      = ∑ e : Fin 768, x (ix3 r b e) := by
  refine (Ideal.multiReduction_add_single x 0x00000000#32 reduces_S16x32x768_S16x32 hφ hacc (ix2 r b)).trans ?_
  refine Finset.sum_congr rfl fun e _ => congrArg x ?_
  funext a
  match a with
  | ⟨0, _⟩ => rfl
  | ⟨1, _⟩ => rfl
  | ⟨2, _⟩ => rfl

/-- The reset's stored value is zero at every index. -/
theorem reset_at (j : S16x32x768.Idx) : k0_pay1 (F := Ideal) j = 0 := by
  unfold k0_pay1
  show shapeCast S16x32x768 (broadcast S16x32x768 (Scalar.ofBits (F := Ideal) .f32 0x00000000#32)) shapeCasts_S16x32x768_S16x32x768 j = 0
  rw [shapeCast_self, broadcast_apply]
  exact Ideal.ofBits_zero_f32

/-- The accumulation's stored value at (r, b, e). -/
theorem accum_at (v6 : Vec Ideal S32x256 .f32) (v8 v10 : Vec Ideal S16x256 .f32) (v21 : Vec Ideal S16x256x768 .f32)
    (v24 : Vec Ideal S16x32x768 .f32) (r : Fin 16) (b : Fin 32) (e : Fin 768) :
    k0_pay2 (F := Ideal) v6 v8 v10 v21 v24 (ix3 r b e)
      = v24 (ix3 r b e)
        + ∑ k : Fin 256, (Ideal.div (v6 (ix2 b k)) (v10 (ix2 r k)) - Ideal.div (v8 (ix2 r k)) (v10 (ix2 r k))) * v21 (ix3 r k e) := by
  unfold k0_pay2
  rw [shapeCast_self, addf_apply, matmul_zero_at]
  refine congrArg (v24 (ix3 r b e) + ·) (Finset.sum_congr rfl fun k _ => ?_)
  rw [truncf_apply, truncf_apply, subf_apply, divf_apply, broadcastTo_1bc_abc_apply, shapeCast_ab_1ab_apply,
    broadcastTo_a1c_abc_apply, shapeCast_ab_a1b_apply, broadcastTo_a1c_abc_apply, shapeCast_ab_a1b_apply, divf_apply]

/-- The last step's stored value at (r, b). -/
theorem final_at (v32 : Vec Ideal S32x768 .f32) (v34 v39 v40 : Vec Ideal S16x768 .f32) (v45 : Vec Ideal S16x32x768 .f32)
    (r : Fin 16) (b : Fin 32) :
    k0_pay3 (F := Ideal) v32 v34 v39 v40 v45 (ix2 r b)
      = 0 - ∑ e : Fin 768, v45 (ix3 r b e) * (Ideal.div (v32 (ix2 b e)) (v34 (ix2 r e)) - Ideal.div (v39 (ix2 r e)) (v40 (ix2 r e))) := by
  unfold k0_pay3
  rw [subf_apply, broadcast_apply]
  refine congrArg₂ (· - ·) Ideal.ofBits_zero_f32 ((laneSum_at _ _ _ r b).trans (Finset.sum_congr rfl fun e _ => ?_))
  rw [mulf_apply, subf_apply, divf_apply, broadcastTo_1bc_abc_apply, shapeCast_ab_1ab_apply,
    broadcastTo_a1c_abc_apply, shapeCast_ab_a1b_apply, broadcastTo_a1c_abc_apply, shapeCast_ab_a1b_apply, divf_apply]

end Cert.KernelIdeal.Stored

end
-- ==== Proof.Fold.lean ====
/-
  The accumulator and the output block after each grid point.

  After point `t` (group `g = t / 3`, run `j = t % 3`) the accumulator holds, at (class row r, sample b, output
  feature e), the sum of the runs `0 … j` of the projection of the normalized difference of sample `b` from class
  `16·g + r` — by induction on the point: the first point of a group starts from the zero the reset stored, each later
  one adds its run to what the point before left (`Finset.sum_range_succ`). At the last point of a group that is the
  whole projection (`Cert.Score.proj_eq_runs`), and the output block written there holds, at (r, b), zero minus the
  quadratic form: minus the quadratic form.
-/
import proofs.«112858_j25185688224305_1_alg».proof.Proof.Blocks
import proofs.«112858_j25185688224305_1_alg».proof.Proof.Stored

set_option maxRecDepth 16384

noncomputable section

namespace Cert.KernelIdeal.Fold

open Idealize.ShloMosaic Idealize.ShloMosaic.TcCoe Idealize.SL.Sem Idealize.ShloMosaic.ValueIdx
open Cert.KernelIdeal Cert.KernelIdeal.Gen Cert.KernelIdeal.Cases Cert.KernelIdeal.Blocks Cert.Score

section AnyValues

variable {F : FTy → Type} [FloatOps F]
variable (m : (ℓ : Loc nD τ sig) → Buf (Elt F) ℓ)

/-- At the first point of a group the accumulator ends at the accumulation over the reset's value. -/
theorem acc_at_first (c : Dev nD) (t : Fin cfg0.N) (h0 : t.val % 3 = 0) (h1 : ¬t.val % 3 = 2) :
    (outsAt0 m c t.val t.isLt).2 = accAfter (grid0.coords t) (xblk m c t) (mblk m c t) (sblk m c t) (cblk m c t) k0_pay1 := by
  rw [outsAt0_A m c t h0 h1]
  dsimp only
  exact acc_first c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h)) (xblk m c t) (mblk m c t) (sblk m c t) (cblk m c t)

/-- At a middle point: the accumulation over what the point before left. -/
theorem acc_at_middle (c : Dev nD) (t : Fin cfg0.N) (h0 : ¬t.val % 3 = 0) (h1 : ¬t.val % 3 = 2) :
    (outsAt0 m c t.val t.isLt).2 = accAfter (grid0.coords t) (xblk m c t) (mblk m c t) (sblk m c t) (cblk m c t) (outsAt0 m c (t.val - 1) (Nat.lt_of_le_of_lt (Nat.sub_le _ _) t.isLt)).2 := by
  rw [outsAt0_B m c t h0 h1]
  dsimp only
  exact acc_middle c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h)) (xblk m c t) (mblk m c t) (sblk m c t) (cblk m c t) (outsAt0 m c (t.val - 1) (Nat.lt_of_le_of_lt (Nat.sub_le _ _) t.isLt)).2

/-- At the last point of a group: the same. -/
theorem acc_at_last (c : Dev nD) (t : Fin cfg0.N) (h0 : ¬t.val % 3 = 0) (h1 : t.val % 3 = 2) :
    (outsAt0 m c t.val t.isLt).2 = accAfter (grid0.coords t) (xblk m c t) (mblk m c t) (sblk m c t) (cblk m c t) (outsAt0 m c (t.val - 1) (Nat.lt_of_le_of_lt (Nat.sub_le _ _) t.isLt)).2 := by
  rw [outsAt0_C m c t h0 h1]
  dsimp only
  exact acc_last c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (xblk m c t) (mblk m c t) (sblk m c t) (cblk m c t) (outsAt0 m c (t.val - 1) (Nat.lt_of_le_of_lt (Nat.sub_le _ _) t.isLt)).2

/-- At the last point of a group the output block is the last step's value of the staged blocks and of the accumulator
    as that point leaves it. -/
theorem out_at_last (c : Dev nD) (t : Fin cfg0.N) (h0 : ¬t.val % 3 = 0) (h1 : t.val % 3 = 2) :
    (outsAt0 m c t.val t.isLt).1
      = k0_pay3 (xblk m c t) (sblk m c t) (mblk m c t) (sblk m c t) (accAfter (grid0.coords t) (xblk m c t) (mblk m c t) (sblk m c t) (cblk m c t) (outsAt0 m c (t.val - 1) (Nat.lt_of_le_of_lt (Nat.sub_le _ _) t.isLt)).2) := by
  rw [outsAt0_C m c t h0 h1]
  dsimp only
  exact out_last c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1) (xblk m c t) (mblk m c t) (sblk m c t) (cblk m c t) (outsAt0 m c (t.val - 1) (Nat.lt_of_le_of_lt (Nat.sub_le _ _) t.isLt)).2

end AnyValues

variable (m : (ℓ : Loc nD τ sig) → Buf (Elt Ideal) ℓ)

/-- One accumulation at point `t`, at an index: what was there plus run `t % 3` of the projection for class `16·(t/3) + r`. -/
theorem accAfter_at (c : Dev nD) (t : Fin cfg0.N) (acc : Vec Ideal S16x32x768 .f32) (r : Fin 16) (b : Fin 32) (e : Fin 768) :
    accAfter (grid0.coords t) (xblk m c t) (mblk m c t) (sblk m c t) (cblk m c t) acc (ix3 r b e)
      = acc (ix3 r b e) + projRun (xarr m c) (marr m c) (sarr m c) (carr m c) (classAt (t.val / 3) r) b e (t.val % 3) := by
  unfold accAfter
  rw [Stored.accum_at]
  refine congrArg (acc (ix3 r b e) + ·) (Finset.sum_congr rfl fun k _ => ?_)
  rw [runOfSamples_at, runOfClasses_at, runOfClasses_at, xblk_at, mblk_at, sblk_at, cblk_at]
  rfl

/-- After point `n` the accumulator holds the runs `0 … n % 3` of the projection for the group `n / 3`. -/
theorem acc_runs (c : Dev nD) : ∀ (n : ℕ) (h : n < cfg0.N) (r : Fin 16) (b : Fin 32) (e : Fin 768),
    (outsAt0 m c n h).2 (ix3 r b e)
      = ∑ j ∈ Finset.range (n % 3 + 1), projRun (xarr m c) (marr m c) (sarr m c) (carr m c) (classAt (n / 3) r) b e j := by
  intro n
  induction n with
  | zero =>
    intro h r b e
    refine (congrFun (acc_at_first m c ⟨0, h⟩ rfl (by show ¬(0 : ℕ) % 3 = 2; omega)) (ix3 r b e)).trans ?_
    rw [accAfter_at, Stored.reset_at, zero_add]
    exact (Finset.sum_range_one _).symm
  | succ k ih =>
    intro h r b e
    have hN : k + 1 < 48 := lt_of_lt_of_eq h (show cfg0.N = 48 from N_0)
    by_cases h0 : (k + 1) % 3 = 0
    · refine (congrFun (acc_at_first m c ⟨k + 1, h⟩ h0 (by show ¬(k + 1) % 3 = 2; omega)) (ix3 r b e)).trans ?_
      rw [accAfter_at, Stored.reset_at, zero_add]
      show projRun _ _ _ _ (classAt ((k + 1) / 3) r) b e ((k + 1) % 3) = _
      rw [h0]
      exact (Finset.sum_range_one _).symm
    · have e1 : k / 3 = (k + 1) / 3 := by omega
      have e2 : k % 3 + 1 = (k + 1) % 3 := by omega
      have step : (outsAt0 m c (k + 1) h).2 (ix3 r b e)
          = (outsAt0 m c k (Nat.lt_of_succ_lt h)).2 (ix3 r b e)
            + projRun (xarr m c) (marr m c) (sarr m c) (carr m c) (classAt ((k + 1) / 3) r) b e ((k + 1) % 3) := by
        by_cases h1 : (k + 1) % 3 = 2
        · refine (congrFun (acc_at_last m c ⟨k + 1, h⟩ h0 h1) (ix3 r b e)).trans ?_
          exact accAfter_at m c ⟨k + 1, h⟩ _ r b e
        · refine (congrFun (acc_at_middle m c ⟨k + 1, h⟩ h0 h1) (ix3 r b e)).trans ?_
          exact accAfter_at m c ⟨k + 1, h⟩ _ r b e
      rw [step, ih (Nat.lt_of_succ_lt h) r b e, e1, e2]
      exact (Finset.sum_range_succ _ _).symm

/-- At the last point of a group the output block holds, at (r, b), minus the quadratic form of sample `b` against
    class `16·(t/3) + r`. -/
theorem out_at (c : Dev nD) (t : Fin cfg0.N) (h1 : t.val % 3 = 2) (r : Fin 16) (b : Fin 32) :
    (outsAt0 m c t.val t.isLt).1 (ix2 r b)
      = -quad (xarr m c) (marr m c) (sarr m c) (carr m c) (classAt (t.val / 3) r) b := by
  have h0 : ¬t.val % 3 = 0 := by omega
  refine (congrFun (out_at_last m c t h0 h1) (ix2 r b)).trans ?_
  rw [← acc_at_last m c t h0 h1, Stored.final_at, zero_sub]
  refine congrArg Neg.neg (Finset.sum_congr rfl fun e _ => ?_)
  rw [acc_runs m c t.val t.isLt r b e, h1, xblk_at, sblk_at, mblk_at, ← proj_eq_runs]
  rfl

end Cert.KernelIdeal.Fold

end
-- ==== Proof.Result.lean ====
/-
  The kernel's result array after the run.

  The output window writes its block back exactly at the last point of each group of three (`t % 3 = 2`), and what it
  writes at (r, b) is minus the quadratic form of sample `b` against class `16·(t/3) + r`: block `t / 3` of the one
  [256, 32] array `negQuad` whose entry (c, b) is minus the quadratic form of `b` against `c`. The sixteen blocks tile
  the array (class `c` lies in the block of the point `3·(c / 16) + 2`), so the region leaves the array at `negQuad`; the
  one host operation after the region transposes it to (sample, class), which is the score.
-/
import proofs.«112858_j25185688224305_1_alg».proof.Proof.Fold
import Idealize.ShloMosaic.Lib.StableHlo.Run
import Idealize.ShloMosaic.Lib.Tactic

set_option maxRecDepth 16384

noncomputable section

namespace Cert.KernelIdeal.Result

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Blocks Cert.KernelIdeal.Fold Cert.Score

variable (m : (ℓ : Loc nD τ sig) → Buf (Elt Ideal) ℓ) (ρ : Dev nD → PrngReg)

/-- The [256, 32] array of minus the quadratic forms: entry (class c, sample b). -/
def negQuad (c : Dev nD) : Vec Ideal S256x32 .f32 :=
  fun i => -quad (xarr m c) (marr m c) (sarr m c) (carr m c) (i 0) (i 1)

/-- What a write-back writes is its block of `negQuad`. -/
theorem flushed_eq (c : Dev nD) (t : Fin cfg0.N) (hf : (cfg0.win 4).flush t = true) :
    (dats m 0 c).flushed 4 t = ((cfg0.win 4).blk t).view.read (Elt Ideal) (negQuad m c) := by
  have h1 : t.val % 3 = 2 := (flush0_4 t).mp hf
  have hN : t.val < 48 := lt_of_lt_of_eq t.isLt (show cfg0.N = 48 from N_0)
  obtain ⟨-, -, -, -, -, -, -, -, -, e0, e1⟩ := block_index t
  show (cfg0.win 4).cut (grid0.coords t) ((dats m 0 c).after 4 t) = _
  rw [after0_4]
  funext y
  obtain ⟨r, b, rfl⟩ : ∃ (r : Fin 16) (b : Fin 32), y = ix2 r b := ⟨y 0, y 1, eq_ix2 y⟩
  rw [View.read_apply]
  refine (out_at m c t h1 r b).trans ?_
  show -quad _ _ _ _ (classAt (t.val / 3) r) b
    = -quad _ _ _ _ ((((cfg0.win 4).blk t).view.emb (ix2 r b)) 0) ((((cfg0.win 4).blk t).view.emb (ix2 r b)) 1)
  have hc : classAt (t.val / 3) r = (((cfg0.win 4).blk t).view.emb (ix2 r b)) 0 := Fin.ext (by
    show (16 * (t.val / 3) + r.val) % 256 = win0_4.index t 0 * 16 + 1 * r.val; rw [e0]; omega)
  have hb : b = (((cfg0.win 4).blk t).view.emb (ix2 r b)) 1 := Fin.ext (by
    show b.val = win0_4.index t 1 * 32 + 1 * b.val; rw [e1]; omega)
  rw [← hc, ← hb]

/-- An entry of the array is in point `t`'s block iff each coordinate is in the block's range on its axis. -/
theorem mem_blk (t : Fin cfg0.N) (i : S256x32.Idx) :
    i ∈ ((cfg0.win 4).blk t).view.set
      ↔ ∀ a : Fin 2, win0_4.index t a * S16x32.size a ≤ (i a).val ∧ (i a).val < win0_4.index t a * S16x32.size a + S16x32.size a := by
  show i ∈ ((View.whole main_v0).slice (win0_4.rect t)).set ↔ _
  rw [View.set_slice_whole, Rect.mem_set_unit]
  exact Iff.rfl

/-- Every entry (c, b) is in the block written back at the point `3·(c / 16) + 2`. -/
theorem covered (i : S256x32.Idx) :
    ∃ t : Fin cfg0.N, (cfg0.win 4).flush t = true ∧ i ∈ ((cfg0.win 4).blk t).view.set := by
  have hi0 : (i 0).val < 256 := (i 0).isLt
  have hi1 : (i 1).val < 32 := (i 1).isLt
  obtain ⟨t, ht⟩ : ∃ t : Fin cfg0.N, t.val = 3 * ((i 0).val / 16) + 2 :=
    ⟨⟨3 * ((i 0).val / 16) + 2, by rw [show cfg0.N = 48 from N_0]; omega⟩, rfl⟩
  obtain ⟨-, -, -, -, -, -, -, -, -, e0, e1⟩ := block_index t
  refine ⟨t, (flush0_4 t).mpr (by omega), ?_⟩
  rw [mem_blk]
  intro a
  match a with
  | ⟨0, _⟩ =>
    show win0_4.index t 0 * 16 ≤ (i 0).val ∧ (i 0).val < win0_4.index t 0 * 16 + 16
    rw [e0]; omega
  | ⟨1, _⟩ =>
    show win0_4.index t 1 * 32 ≤ (i 1).val ∧ (i 1).val < win0_4.index t 1 * 32 + 32
    rw [e1]; omega

/-- The region leaves its result array at `negQuad`. -/
theorem final_out (c : Dev nD) : (dats m 0 c).arrAt 4 cfg0.N = negQuad m c :=
  (dats m 0 c).arrAt_eq_of_cover 4 (negQuad m c) (flushed_eq m c) covered

/-- The program's result — the transpose, after the region, of the region's array — is the score. -/
theorem result_eq (c : Dev nD) :
    Pipeline.afterTail₀ cfgs (dats m) 0 (V0 m) [hostOps1] c main_v1
      = score (xarr m c) (marr m c) (sarr m c) (carr m c) := by
  unfold Pipeline.afterTail₀
  show StableHlo.after hostOps1 _ (Proc.devRef .tc main_v1) = _
  after_results
  have hw : Pipeline.withArrays (cfgs 0).spec c (V0 m c) (fun w => (dats m 0 c).arrAt w (cfgs 0).N) (Proc.tc.devRef main_v0)
      = negQuad m c :=
    (Pipeline.withArrays_arr spec0 launch0.win.arr_inj c _ _ 4).trans (final_out m c)
  rw [hw]
  funext i
  obtain ⟨b, k, rfl⟩ : ∃ (b : Fin 32) (k : Fin 256), i = ix2 b k := ⟨i 0, i 1, eq_ix2 i⟩
  refine (transpose_apply [1, 0] (negQuad m c) transposes_S256x32_S32x256_1_0 (ix2 b k) (ix2 k b)
    (fun a => match a with | ⟨0, _⟩ => rfl | ⟨1, _⟩ => rfl)).trans ?_
  rfl

/-- The run, read: the result at the score of the four argument arrays, the arguments unchanged. -/
theorem run : θ_run defs (onTc (τ := τ) (main (F := Ideal))) ⟨m, fun _ => 0, ρ⟩ fun r => ∀ c : Dev nD,
      r.2.mem ((c : Thread nD τ).loc main_v1)
        = score (m ((c : Thread nD τ).loc main_arg0)) (m ((c : Thread nD τ).loc main_arg1))
            (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c =>
    ⟨((h c).2 main_v1 (Pipeline.mem_restRefs_of main_v1 rfl (by decide))).trans (result_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩)
    (run_main m ρ)

end Cert.KernelIdeal.Result

end
-- ==== Proof.lean ====
/-
  The kernel and its reference compute the same scores over the extended reals.

  For sample `b` and class `c` let  nd_d = x[b,d] / σ[c,d] − μ[c,d] / σ[c,d]  (the normalized difference, 768 features),
  proj_e = ∑_d nd_d · Λ[c,d,e]  and  quad = ∑_e proj_e · nd_e;  the score at (b, c) is −quad (`Cert.Score.score`).

  The reference forms the differences once as a [256, 32, 768] array, contracts them with the class matrices, multiplies
  by the differences, sums over the last axis from zero, transposes and negates: index by index the score
  (`Cert.Score.Ref.ref_eq_score`, over the reference's generated run read one operation at a time).

  The kernel walks 16 groups of 16 classes × 3 runs of 256 features. At each point it adds to an accumulator, zeroed at
  the first run of a group, the current run's part of the projection (a product of the 256 current columns of the
  differences with the staged 256 rows of the class matrices; the change of float format before the product is the identity
  on the extended reals); at the last run the accumulator is the whole projection — a sum over 768 features is the sum of
  its three runs of 256, a law of any commutative monoid, so no finiteness of the inputs is used — and the output block
  is zero minus the quadratic form. The sixteen blocks tile the [256, 32] result, which the host then transposes
  (`Cert.KernelIdeal.Result.run`).

  The three frames are the generated ones (the reference's is its generated run with the result dropped); the ideal
  pass rewrote nothing, so the kernel's idealization is the kernel's own text read over the extended reals.
-/
import proofs.«112858_j25185688224305_1_alg».proof.Defs
import proofs.«112858_j25185688224305_1_alg».proof.Proof.Gen.Kernel
import proofs.«112858_j25185688224305_1_alg».proof.Proof.Gen.Kernel.Skeleton
import proofs.«112858_j25185688224305_1_alg».proof.Proof.Gen.Kernel.Launch
import proofs.«112858_j25185688224305_1_alg».proof.Proof.Gen.Kernel.Points
import proofs.«112858_j25185688224305_1_alg».proof.Proof.Gen.Kernel.Frame
import proofs.«112858_j25185688224305_1_alg».proof.Proof.Gen.KernelIdeal
import proofs.«112858_j25185688224305_1_alg».proof.Proof.Gen.KernelIdeal.Skeleton
import proofs.«112858_j25185688224305_1_alg».proof.Proof.Gen.KernelIdeal.Launch
import proofs.«112858_j25185688224305_1_alg».proof.Proof.Gen.KernelIdeal.Points
import proofs.«112858_j25185688224305_1_alg».proof.Proof.Gen.KernelIdeal.Frame
import proofs.«112858_j25185688224305_1_alg».proof.Proof.Gen.ReferenceIdeal
import proofs.«112858_j25185688224305_1_alg».proof.Proof.Gen.Pre_finite_inputs
import proofs.«112858_j25185688224305_1_alg».proof.Proof.Gen.ReferenceIdeal.Run
import proofs.«112858_j25185688224305_1_alg».proof.Proof.Gen.ReferenceIdeal.Read
import proofs.«112858_j25185688224305_1_alg».proof.Proof.RefScore
import proofs.«112858_j25185688224305_1_alg».proof.Proof.Result
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation was rewritten: nothing to preserve. -/
theorem preserves : Cert.preserves_Kernel_KernelIdeal := trivial

/-- Both programs end at the score of their argument arrays, and the arguments agree. -/
theorem algebraic : Cert.algebraic_KernelIdeal_ReferenceIdeal := by
  intro m ρ m' ρ' _ hagree
  refine ⟨fun c => Cert.Score.score (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2]
  exact (Cert.ReferenceIdeal.Read.val_main_v13_eq _ _ _ _).trans (Cert.Score.Ref.ref_eq_score _ _ _ _)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
